-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x5x128x3x3 : Shape := ⟨5, ![8192, 5, 128, 3, 3]⟩
abbrev S1x1152x1 : Shape := ⟨3, ![1, 1152, 1]⟩
abbrev S55x1 : Shape := ⟨2, ![55, 1]⟩
abbrev S_ : Shape := ⟨0, ![]⟩

class Facts : Prop where
  bcast_S_S8192x5x128x3x3 : S_.BroadcastsInDim S8192x5x128x3x3 (![] : Fin 0 → Fin S8192x5x128x3x3.rank)
  reducesTo_S8192x5x128x3x3_S_d0_1_2_3_4 : S8192x5x128x3x3.ReducesTo [0, 1, 2, 3, 4] S_
  h_S_ : 0 < S_.numel
  bcast_S_S1x1152x1 : S_.BroadcastsInDim S1x1152x1 (![] : Fin 0 → Fin S1x1152x1.rank)
  reducesTo_S1x1152x1_S_d0_1_2 : S1x1152x1.ReducesTo [0, 1, 2] S_
  bcast_S_S55x1 : S_.BroadcastsInDim S55x1 (![] : Fin 0 → Fin S55x1.rank)
  reducesTo_S55x1_S_d0_1 : S55x1.ReducesTo [0, 1] S_

variable [Facts]

def fn {F : FTy → Type} [FloatOps F] (main_arg0 : FVec F S8192x5x128x3x3 .f32) (main_arg1 : FVec F S1x1152x1 .f32) (main_arg2 : FVec F S55x1 .f32) : IVec S_ 1 :=
  let main_v0 : FVec F S8192x5x128x3x3 .f32 := Host.absf main_arg0
  let main_cst : FVec F S_ .f32 := constant S_ .f32 0x7F800000#32
  let main_v1 : FVec F S8192x5x128x3x3 .f32 := broadcastInDim S8192x5x128x3x3 ![] bcast_S_S8192x5x128x3x3 main_cst
  let main_v2 : IVec S8192x5x128x3x3 1 := cmpf .olt main_v0 main_v1
  let main_c : IVec S_ 1 := constantI S_ 1 1#1
  let main_v3 : IVec S_ 1 := (fun x v => Host.reduce IntOp.andi x v reducesTo_S8192x5x128x3x3_S_d0_1_2_3_4 h_S_) main_v2 main_c
  let main_v4 : FVec F S1x1152x1 .f32 := Host.absf main_arg1
  let main_cst_0 : FVec F S_ .f32 := constant S_ .f32 0x7F800000#32
  let main_v5 : FVec F S1x1152x1 .f32 := broadcastInDim S1x1152x1 ![] bcast_S_S1x1152x1 main_cst_0
  let main_v6 : IVec S1x1152x1 1 := cmpf .olt main_v4 main_v5
  let main_c_1 : IVec S_ 1 := constantI S_ 1 1#1
  let main_v7 : IVec S_ 1 := (fun x v => Host.reduce IntOp.andi x v reducesTo_S1x1152x1_S_d0_1_2 h_S_) main_v6 main_c_1
  let main_v8 : IVec S_ 1 := andi main_v3 main_v7
  let main_v9 : FVec F S55x1 .f32 := Host.absf main_arg2
  let main_cst_2 : FVec F S_ .f32 := constant S_ .f32 0x7F800000#32
  let main_v10 : FVec F S55x1 .f32 := broadcastInDim S55x1 ![] bcast_S_S55x1 main_cst_2
  let main_v11 : IVec S55x1 1 := cmpf .olt main_v9 main_v10
  let main_c_3 : IVec S_ 1 := constantI S_ 1 1#1
  let main_v12 : IVec S_ 1 := (fun x v => Host.reduce IntOp.andi x v reducesTo_S55x1_S_d0_1 h_S_) main_v11 main_c_3
  let main_v13 : IVec S_ 1 := andi main_v8 main_v12
  main_v13
-- ==== Kernel.lean ====
abbrev S8192x5x128x3x3 : Shape := ⟨5, ![8192, 5, 128, 3, 3]⟩
abbrev S1x1152x1 : Shape := ⟨3, ![1, 1152, 1]⟩
abbrev S55x1 : Shape := ⟨2, ![55, 1]⟩
abbrev S8192x5x1152 : Shape := ⟨3, ![8192, 5, 1152]⟩
abbrev S40960x1152 : Shape := ⟨2, ![40960, 1152]⟩
abbrev S1152x1 : Shape := ⟨2, ![1152, 1]⟩
abbrev S40960x1 : Shape := ⟨2, ![40960, 1]⟩
abbrev S2048x1152 : Shape := ⟨2, ![2048, 1152]⟩
abbrev S2048x1 : Shape := ⟨2, ![2048, 1]⟩
abbrev S8192x5x1 : Shape := ⟨3, ![8192, 5, 1]⟩
abbrev S8192x55x5 : Shape := ⟨3, ![8192, 55, 5]⟩
abbrev S_ : Shape := ⟨0, ![]⟩
abbrev S8192x5 : Shape := ⟨2, ![8192, 5]⟩
abbrev S8192x1x5 : Shape := ⟨3, ![8192, 1, 5]⟩
abbrev S8192x55x1 : Shape := ⟨3, ![8192, 55, 1]⟩
abbrev S8192x55 : Shape := ⟨2, ![8192, 55]⟩

abbrev nBuf : Space → Nat
  | .hbm => 65
  | .vmem => 5
  | .smem => 0
  | _ => 0

abbrev bufTy : (tb : Table) → Fin (tcTables nBuf tb) → BufTy
  | .hbm, ⟨0, _⟩ => ⟨S8192x5x128x3x3, .f32⟩
  | .hbm, ⟨1, _⟩ => ⟨S1x1152x1, .f32⟩
  | .hbm, ⟨2, _⟩ => ⟨S55x1, .f32⟩
  | .hbm, ⟨3, _⟩ => ⟨S8192x5x1152, .f32⟩
  | .hbm, ⟨4, _⟩ => ⟨S40960x1152, .f32⟩
  | .hbm, ⟨5, _⟩ => ⟨S1152x1, .f32⟩
  | .hbm, ⟨6, _⟩ => ⟨S40960x1, .f32⟩
  | .hbm, ⟨7, _⟩ => ⟨S8192x5x1, .f32⟩
  | .hbm, ⟨8, _⟩ => ⟨S8192x55x5, .f32⟩
  | .hbm, ⟨9, _⟩ => ⟨S_, .f32⟩
  | .hbm, ⟨10, _⟩ => ⟨S8192x5, .f32⟩
  | .hbm, ⟨11, _⟩ => ⟨S_, .f32⟩
  | .hbm, ⟨12, _⟩ => ⟨S8192x5, .f32⟩
  | .hbm, ⟨13, _⟩ => ⟨S8192x5, .f32⟩
  | .hbm, ⟨14, _⟩ => ⟨S8192x1x5, .f32⟩
  | .hbm, ⟨15, _⟩ => ⟨S8192x55x5, .f32⟩
  | .hbm, ⟨16, _⟩ => ⟨S8192x55x5, .f32⟩
  | .hbm, ⟨17, _⟩ => ⟨S8192x55x5, .f32⟩
  | .hbm, ⟨18, _⟩ => ⟨S_, .f32⟩
  | .hbm, ⟨19, _⟩ => ⟨S8192x5, .f32⟩
  | .hbm, ⟨20, _⟩ => ⟨S8192x1x5, .f32⟩
  | .hbm, ⟨21, _⟩ => ⟨S8192x55x5, .f32⟩
  | .hbm, ⟨22, _⟩ => ⟨S8192x55x5, .f32⟩
  | .hbm, ⟨23, _⟩ => ⟨S8192x55x1, .f32⟩
  | .hbm, ⟨24, _⟩ => ⟨S8192x55x1, .f32⟩
  | .hbm, ⟨25, _⟩ => ⟨S_, .f32⟩
  | .hbm, ⟨26, _⟩ => ⟨S8192x55, .f32⟩
  | .hbm, ⟨27, _⟩ => ⟨S8192x55x1, .f32⟩
  | .hbm, ⟨28, _⟩ => ⟨S8192x55x1, .f32⟩
  | .hbm, ⟨29, _⟩ => ⟨S_, .f32⟩
  | .hbm, ⟨30, _⟩ => ⟨S8192x55x1, .f32⟩
  | .hbm, ⟨31, _⟩ => ⟨S8192x55x1, .f32⟩
  | .hbm, ⟨32, _⟩ => ⟨S8192x55x1, .f32⟩
  | .hbm, ⟨33, _⟩ => ⟨S8192x55x1, .f32⟩
  | .hbm, ⟨34, _⟩ => ⟨S8192x1x5, .f32⟩
  | .hbm, ⟨35, _⟩ => ⟨S8192x55x5, .f32⟩
  | .hbm, ⟨36, _⟩ => ⟨S8192x55x5, .f32⟩
  | .hbm, ⟨37, _⟩ => ⟨S_, .f32⟩
  | .hbm, ⟨38, _⟩ => ⟨S8192x5, .f32⟩
  | .hbm, ⟨39, _⟩ => ⟨S_, .f32⟩
  | .hbm, ⟨40, _⟩ => ⟨S8192x5, .f32⟩
  | .hbm, ⟨41, _⟩ => ⟨S8192x5, .f32⟩
  | .hbm, ⟨42, _⟩ => ⟨S8192x1x5, .f32⟩
  | .hbm, ⟨43, _⟩ => ⟨S8192x55x5, .f32⟩
  | .hbm, ⟨44, _⟩ => ⟨S8192x55x5, .f32⟩
  | .hbm, ⟨45, _⟩ => ⟨S8192x55x5, .f32⟩
  | .hbm, ⟨46, _⟩ => ⟨S_, .f32⟩
  | .hbm, ⟨47, _⟩ => ⟨S8192x5, .f32⟩
  | .hbm, ⟨48, _⟩ => ⟨S8192x1x5, .f32⟩
  | .hbm, ⟨49, _⟩ => ⟨S8192x55x5, .f32⟩
  | .hbm, ⟨50, _⟩ => ⟨S8192x55x5, .f32⟩
  | .hbm, ⟨51, _⟩ => ⟨S8192x55x1, .f32⟩
  | .hbm, ⟨52, _⟩ => ⟨S8192x55x1, .f32⟩
  | .hbm, ⟨53, _⟩ => ⟨S_, .f32⟩
  | .hbm, ⟨54, _⟩ => ⟨S8192x55, .f32⟩
  | .hbm, ⟨55, _⟩ => ⟨S8192x55x1, .f32⟩
  | .hbm, ⟨56, _⟩ => ⟨S8192x55x1, .f32⟩
  | .hbm, ⟨57, _⟩ => ⟨S_, .f32⟩
  | .hbm, ⟨58, _⟩ => ⟨S8192x55x1, .f32⟩
  | .hbm, ⟨59, _⟩ => ⟨S8192x55x1, .f32⟩
  | .hbm, ⟨60, _⟩ => ⟨S8192x55x1, .f32⟩
  | .hbm, ⟨61, _⟩ => ⟨S8192x55x1, .f32⟩
  | .hbm, ⟨62, _⟩ => ⟨S8192x1x5, .f32⟩
  | .hbm, ⟨63, _⟩ => ⟨S8192x55x5, .f32⟩
  | .hbm, ⟨64, _⟩ => ⟨S8192x55x5, .f32⟩
  | .local _ .vmem, ⟨0, _⟩ => ⟨S2048x1152, .f32⟩
  | .local _ .vmem, ⟨1, _⟩ => ⟨S2048x1152, .f32⟩
  | .local _ .vmem, ⟨2, _⟩ => ⟨S1152x1, .f32⟩
  | .local _ .vmem, ⟨3, _⟩ => ⟨S2048x1, .f32⟩
  | .local _ .vmem, ⟨4, _⟩ => ⟨S2048x1, .f32⟩
  | _, _ => ⟨S8192x5x128x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192x5x128x3x3_S8192x5x1152 : S8192x5x128x3x3.ShapeCasts S8192x5x1152
  shapeCasts_S8192x5x1152_S40960x1152 : S8192x5x1152.ShapeCasts S40960x1152
  shapeCasts_S1x1152x1_S1152x1 : S1x1152x1.ShapeCasts S1152x1
  inb_S2048x1152_S2048x1152_0_0 : ∀ a, (![0, 0] : Fin 2 → Nat) a + S2048x1152.size a ≤ S2048x1152.size a
  h_S2048x1152 : 0 < S2048x1152.numel
  shapeCasts_S2048x1152_S2048x1152 : S2048x1152.ShapeCasts S2048x1152
  bitsLt_bf16_f32 : FTy.bits .bf16 < FTy.bits .f32
  inb_S1152x1_S1152x1_0_0 : ∀ a, (![0, 0] : Fin 2 → Nat) a + S1152x1.size a ≤ S1152x1.size a
  h_S1152x1 : 0 < S1152x1.numel
  shapeCasts_S1152x1_S1152x1 : S1152x1.ShapeCasts S1152x1
  inb_S2048x1_S2048x1_0_0 : ∀ a, (![0, 0] : Fin 2 → Nat) a + S2048x1.size a ≤ S2048x1.size a
  h_S2048x1 : 0 < S2048x1.numel
  shapeCasts_S40960x1_S8192x5x1 : S40960x1.ShapeCasts S8192x5x1
  bcast_S55x1_S8192x55x5_1_2 : S55x1.BroadcastsInDim S8192x55x5 (![1, 2] : Fin 2 → Fin S8192x55x5.rank)
  reducesTo_S8192x55x5_S8192x5_d1 : S8192x55x5.ReducesTo [1] S8192x5
  h_S_ : 0 < S_.numel
  bcast_S_S8192x5 : S_.BroadcastsInDim S8192x5 (![] : Fin 0 → Fin S8192x5.rank)
  bcast_S8192x5_S8192x1x5_0_2 : S8192x5.BroadcastsInDim S8192x1x5 (![0, 2] : Fin 2 → Fin S8192x1x5.rank)
  bcast_S8192x1x5_S8192x55x5_0_1_2 : S8192x1x5.BroadcastsInDim S8192x55x5 (![0, 1, 2] : Fin 3 → Fin S8192x55x5.rank)
  reducesTo_S8192x55x1_S8192x55_d2 : S8192x55x1.ReducesTo [2] S8192x55
  bcast_S8192x55_S8192x55x1_0_1 : S8192x55.BroadcastsInDim S8192x55x1 (![0, 1] : Fin 2 → Fin S8192x55x1.rank)
  bcast_S_S8192x55x1 : S_.BroadcastsInDim S8192x55x1 (![] : Fin 0 → Fin S8192x55x1.rank)
  transposes_S8192x5x1_S8192x1x5_0_2_1 : S8192x5x1.Transposes [0, 2, 1] S8192x1x5
  dot_S2048x1152_S1152x1_S2048x1_1_0_0_1_n_n_wf : DotDims.WF S2048x1152 S1152x1 S2048x1 [1] [0] [0] [1] [] []
  dot_S8192x55x5_S8192x5x1_S8192x55x1_2_1_1_2_0_0_wf : DotDims.WF S8192x55x5 S8192x5x1 S8192x55x1 [2] [1] [1] [2] [0] [0]
  dot_S8192x55x1_S8192x1x5_S8192x55x5_2_1_1_2_0_0_wf : DotDims.WF S8192x55x1 S8192x1x5 S8192x55x5 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1152.size a ≤ S40960x1152.size a
  hwx0_0 : ∀ i : grid0.Coords, EltTy.bits .f32 = 32 ∨ (Rect.block (s := S40960x1152) S2048x1152.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x1.size a ≤ S1152x1.size a
  hwx0_1 : ∀ i : grid0.Coords, EltTy.bits .f32 = 32 ∨ (Rect.block (s := S1152x1) S1152x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S40960x1.size a
  hwx0_2 : ∀ i : grid0.Coords, EltTy.bits .f32 = 32 ∨ (Rect.block (s := S40960x1) S2048x1.size (cc0_transform_2 i) (hinb0_2 i)).WholeWords (EltTy.packing .f32)

variable [Facts₀]

def dot_S2048x1152_S1152x1_S2048x1_1_0_0_1_n_n : DotDims S2048x1152 S1152x1 S2048x1 where
  lhsContracting := [1]
  rhsContracting := [0]
  lhsNonContracting := [0]
  rhsNonContracting := [1]
  lhsBatch := []
  rhsBatch := []
  wf := dot_S2048x1152_S1152x1_S2048x1_1_0_0_1_n_n_wf
def dot_S8192x55x5_S8192x5x1_S8192x55x1_2_1_1_2_0_0 : DotDims S8192x55x5 S8192x5x1 S8192x55x1 where
  lhsContracting := [2]
  rhsContracting := [1]
  lhsNonContracting := [1]
  rhsNonContracting := [2]
  lhsBatch := [0]
  rhsBatch := [0]
  wf := dot_S8192x55x5_S8192x5x1_S8192x55x1_2_1_1_2_0_0_wf
def dot_S8192x55x1_S8192x1x5_S8192x55x5_2_1_1_2_0_0 : DotDims S8192x55x1 S8192x1x5 S8192x55x5 where
  lhsContracting := [2]
  rhsContracting := [1]
  lhsNonContracting := [1]
  rhsNonContracting := [2]
  lhsBatch := [0]
  rhsBatch := [0]
  wf := dot_S8192x55x1_S8192x1x5_S8192x55x5_2_1_1_2_0_0_wf

abbrev win0_0 : Pipeline.Window sig grid0 :=
  Pipeline.Window.ofSpec (Memref.whole main_v1) S2048x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1152x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x5x128x3x3 : Shape := ⟨5, ![8192, 5, 128, 3, 3]⟩
abbrev S1x1152x1 : Shape := ⟨3, ![1, 1152, 1]⟩
abbrev S55x1 : Shape := ⟨2, ![55, 1]⟩
abbrev S8192x5x1152 : Shape := ⟨3, ![8192, 5, 1152]⟩
abbrev S8192x1152x1 : Shape := ⟨3, ![8192, 1152, 1]⟩
abbrev S8192x5x1 : Shape := ⟨3, ![8192, 5, 1]⟩
abbrev S8192x55x5 : Shape := ⟨3, ![8192, 55, 5]⟩
abbrev S_ : Shape := ⟨0, ![]⟩
abbrev S8192x5 : Shape := ⟨2, ![8192, 5]⟩
abbrev S8192x1x5 : Shape := ⟨3, ![8192, 1, 5]⟩
abbrev S8192x55x1 : Shape := ⟨3, ![8192, 55, 1]⟩
abbrev S8192x55 : Shape := ⟨2, ![8192, 55]⟩

abbrev nBuf : Space → Nat
  | .hbm => 63
  | .vmem => 0
  | .smem => 0
  | _ => 0

abbrev bufTy : (tb : Table) → Fin (tcTables nBuf tb) → BufTy
  | .hbm, ⟨0, _⟩ => ⟨S8192x5x128x3x3, .f32⟩
  | .hbm, ⟨1, _⟩ => ⟨S1x1152x1, .f32⟩
  | .hbm, ⟨2, _⟩ => ⟨S55x1, .f32⟩
  | .hbm, ⟨3, _⟩ => ⟨S8192x5x1152, .f32⟩
  | .hbm, ⟨4, _⟩ => ⟨S8192x1152x1, .f32⟩
  | .hbm, ⟨5, _⟩ => ⟨S8192x5x1, .f32⟩
  | .hbm, ⟨6, _⟩ => ⟨S8192x55x5, .f32⟩
  | .hbm, ⟨7, _⟩ => ⟨S_, .f32⟩
  | .hbm, ⟨8, _⟩ => ⟨S8192x5, .f32⟩
  | .hbm, ⟨9, _⟩ => ⟨S_, .f32⟩
  | .hbm, ⟨10, _⟩ => ⟨S8192x5, .f32⟩
  | .hbm, ⟨11, _⟩ => ⟨S8192x5, .f32⟩
  | .hbm, ⟨12, _⟩ => ⟨S8192x1x5, .f32⟩
  | .hbm, ⟨13, _⟩ => ⟨S8192x55x5, .f32⟩
  | .hbm, ⟨14, _⟩ => ⟨S8192x55x5, .f32⟩
  | .hbm, ⟨15, _⟩ => ⟨S8192x55x5, .f32⟩
  | .hbm, ⟨16, _⟩ => ⟨S_, .f32⟩
  | .hbm, ⟨17, _⟩ => ⟨S8192x5, .f32⟩
  | .hbm, ⟨18, _⟩ => ⟨S8192x1x5, .f32⟩
  | .hbm, ⟨19, _⟩ => ⟨S8192x55x5, .f32⟩
  | .hbm, ⟨20, _⟩ => ⟨S8192x55x5, .f32⟩
  | .hbm, ⟨21, _⟩ => ⟨S8192x55x1, .f32⟩
  | .hbm, ⟨22, _⟩ => ⟨S8192x55x1, .f32⟩
  | .hbm, ⟨23, _⟩ => ⟨S_, .f32⟩
  | .hbm, ⟨24, _⟩ => ⟨S8192x55, .f32⟩
  | .hbm, ⟨25, _⟩ => ⟨S8192x55x1, .f32⟩
  | .hbm, ⟨26, _⟩ => ⟨S8192x55x1, .f32⟩
  | .hbm, ⟨27, _⟩ => ⟨S_, .f32⟩
  | .hbm, ⟨28, _⟩ => ⟨S8192x55x1, .f32⟩
  | .hbm, ⟨29, _⟩ => ⟨S8192x55x1, .f32⟩
  | .hbm, ⟨30, _⟩ => ⟨S8192x55x1, .f32⟩
  | .hbm, ⟨31, _⟩ => ⟨S8192x55x1, .f32⟩
  | .hbm, ⟨32, _⟩ => ⟨S8192x1x5, .f32⟩
  | .hbm, ⟨33, _⟩ => ⟨S8192x55x5, .f32⟩
  | .hbm, ⟨34, _⟩ => ⟨S8192x55x5, .f32⟩
  | .hbm, ⟨35, _⟩ => ⟨S_, .f32⟩
  | .hbm, ⟨36, _⟩ => ⟨S8192x5, .f32⟩
  | .hbm, ⟨37, _⟩ => ⟨S_, .f32⟩
  | .hbm, ⟨38, _⟩ => ⟨S8192x5, .f32⟩
  | .hbm, ⟨39, _⟩ => ⟨S8192x5, .f32⟩
  | .hbm, ⟨40, _⟩ => ⟨S8192x1x5, .f32⟩
  | .hbm, ⟨41, _⟩ => ⟨S8192x55x5, .f32⟩
  | .hbm, ⟨42, _⟩ => ⟨S8192x55x5, .f32⟩
  | .hbm, ⟨43, _⟩ => ⟨S8192x55x5, .f32⟩
  | .hbm, ⟨44, _⟩ => ⟨S_, .f32⟩
  | .hbm, ⟨45, _⟩ => ⟨S8192x5, .f32⟩
  | .hbm, ⟨46, _⟩ => ⟨S8192x1x5, .f32⟩
  | .hbm, ⟨47, _⟩ => ⟨S8192x55x5, .f32⟩
  | .hbm, ⟨48, _⟩ => ⟨S8192x55x5, .f32⟩
  | .hbm, ⟨49, _⟩ => ⟨S8192x55x1, .f32⟩
  | .hbm, ⟨50, _⟩ => ⟨S8192x55x1, .f32⟩
  | .hbm, ⟨51, _⟩ => ⟨S_, .f32⟩
  | .hbm, ⟨52, _⟩ => ⟨S8192x55, .f32⟩
  | .hbm, ⟨53, _⟩ => ⟨S8192x55x1, .f32⟩
  | .hbm, ⟨54, _⟩ => ⟨S8192x55x1, .f32⟩
  | .hbm, ⟨55, _⟩ => ⟨S_, .f32⟩
  | .hbm, ⟨56, _⟩ => ⟨S8192x55x1, .f32⟩
  | .hbm, ⟨57, _⟩ => ⟨S8192x55x1, .f32⟩
  | .hbm, ⟨58, _⟩ => ⟨S8192x55x1, .f32⟩
  | .hbm, ⟨59, _⟩ => ⟨S8192x55x1, .f32⟩
  | .hbm, ⟨60, _⟩ => ⟨S8192x1x5, .f32⟩
  | .hbm, ⟨61, _⟩ => ⟨S8192x55x5, .f32⟩
  | .hbm, ⟨62, _⟩ => ⟨S8192x55x5, .f32⟩
  | _, _ => ⟨S8192x5x128x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]

class Facts₀ : Prop where
  shapeCasts_S8192x5x128x3x3_S8192x5x1152 : S8192x5x128x3x3.ShapeCasts S8192x5x1152
  bcast_S1x1152x1_S8192x1152x1_0_1_2 : S1x1152x1.BroadcastsInDim S8192x1152x1 (![0, 1, 2] : Fin 3 → Fin S8192x1152x1.rank)
  bcast_S55x1_S8192x55x5_1_2 : S55x1.BroadcastsInDim S8192x55x5 (![1, 2] : Fin 2 → Fin S8192x55x5.rank)
  reducesTo_S8192x55x5_S8192x5_d1 : S8192x55x5.ReducesTo [1] S8192x5
  h_S_ : 0 < S_.numel
  bcast_S_S8192x5 : S_.BroadcastsInDim S8192x5 (![] : Fin 0 → Fin S8192x5.rank)
  bcast_S8192x5_S8192x1x5_0_2 : S8192x5.BroadcastsInDim S8192x1x5 (![0, 2] : Fin 2 → Fin S8192x1x5.rank)
  bcast_S8192x1x5_S8192x55x5_0_1_2 : S8192x1x5.BroadcastsInDim S8192x55x5 (![0, 1, 2] : Fin 3 → Fin S8192x55x5.rank)
  reducesTo_S8192x55x1_S8192x55_d2 : S8192x55x1.ReducesTo [2] S8192x55
  bcast_S8192x55_S8192x55x1_0_1 : S8192x55.BroadcastsInDim S8192x55x1 (![0, 1] : Fin 2 → Fin S8192x55x1.rank)
  bcast_S_S8192x55x1 : S_.BroadcastsInDim S8192x55x1 (![] : Fin 0 → Fin S8192x55x1.rank)
  transposes_S8192x5x1_S8192x1x5_0_2_1 : S8192x5x1.Transposes [0, 2, 1] S8192x1x5
  dot_S8192x5x1152_S8192x1152x1_S8192x5x1_2_1_1_2_0_0_wf : DotDims.WF S8192x5x1152 S8192x1152x1 S8192x5x1 [2] [1] [1] [2] [0] [0]
  dot_S8192x55x5_S8192x5x1_S8192x55x1_2_1_1_2_0_0_wf : DotDims.WF S8192x55x5 S8192x5x1 S8192x55x1 [2] [1] [1] [2] [0] [0]
  dot_S8192x55x1_S8192x1x5_S8192x55x5_2_1_1_2_0_0_wf : DotDims.WF S8192x55x1 S8192x1x5 S8192x55x5 [2] [1] [1] [2] [0] [0]

variable [Facts₀]

def dot_S8192x5x1152_S8192x1152x1_S8192x5x1_2_1_1_2_0_0 : DotDims S8192x5x1152 S8192x1152x1 S8192x5x1 where
  lhsContracting := [2]
  rhsContracting := [1]
  lhsNonContracting := [1]
  rhsNonContracting := [2]
  lhsBatch := [0]
  rhsBatch := [0]
  wf := dot_S8192x5x1152_S8192x1152x1_S8192x5x1_2_1_1_2_0_0_wf
def dot_S8192x55x5_S8192x5x1_S8192x55x1_2_1_1_2_0_0 : DotDims S8192x55x5 S8192x5x1 S8192x55x1 where
  lhsContracting := [2]
  rhsContracting := [1]
  lhsNonContracting := [1]
  rhsNonContracting := [2]
  lhsBatch := [0]
  rhsBatch := [0]
  wf := dot_S8192x55x5_S8192x5x1_S8192x55x1_2_1_1_2_0_0_wf
def dot_S8192x55x1_S8192x1x5_S8192x55x5_2_1_1_2_0_0 : DotDims S8192x55x1 S8192x1x5 S8192x55x5 where
  lhsContracting := [2]
  rhsContracting := [1]
  lhsNonContracting := [1]
  rhsNonContracting := [2]
  lhsBatch := [0]
  rhsBatch := [0]
  wf := dot_S8192x55x1_S8192x1x5_S8192x55x5_2_1_1_2_0_0_wf

class Facts : Prop extends Facts₀ where

variable [Facts]
-- ==== Proof.Flat.lean ====
/-
  The launch's arithmetic: each row of a block times the one weight column.

  The body loads a block of 2048 rows of 1152 entries and the 1152 × 1 weight column, changes both to bf16 (the
  identity on the extended reals) and multiplies them into a zero accumulator. Read at row `p` (and the single
  column `q`) the stored value is the plain sum `Σ_k x[p, k] · w[k, q]` over the 1152 contraction positions.
  `rowDots` states the same sum for a whole array of rows.
-/
import proofs.«176303_j12678743458055_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Flat

open Idealize.ShloMosaic Idealize.ShloMosaic.ValueIdx Cert.KernelIdeal Cert.KernelIdeal.Gen

/-- Every row of `a1` dotted with the column of `a2`: entry `(r, q)` is `Σ_k a1[r, k] · a2[k, q]`. -/
def rowDots (a1 : S40960x1152.Idx → EReal) (a2 : S1152x1.Idx → EReal) : S40960x1.Idx → EReal :=
  fun i => ∑ k : Fin 1152, a1 (ix2 (i 0) k) * a2 (ix2 k (i 1))

/-- The launch's product: rows by contraction, contraction by columns. -/
abbrev D : DotDims S2048x1152 S1152x1 S2048x1 := dot_S2048x1152_S1152x1_S2048x1_1_0_0_1_n_n

/-- The left operand's row is the result's row. -/
theorem lhs_0 (j : S2048x1.Idx) (k : D.contr.Idx) : (D.lhsIdx j k 0 : ℕ) = j 0 := by
  simp [DotDims.lhsIdx, D, dot_S2048x1152_S1152x1_S2048x1_1_0_0_1_n_n]; rfl
/-- The left operand's column is the contraction position. -/
theorem lhs_1 (j : S2048x1.Idx) (k : D.contr.Idx) : (D.lhsIdx j k 1 : ℕ) = k ⟨0, by decide⟩ := by
  simp [DotDims.lhsIdx, D, dot_S2048x1152_S1152x1_S2048x1_1_0_0_1_n_n]; rfl
/-- The right operand's row is the contraction position. -/
theorem rhs_0 (j : S2048x1.Idx) (k : D.contr.Idx) : (D.rhsIdx j k 0 : ℕ) = k ⟨0, by decide⟩ := by
  simp [DotDims.rhsIdx, D, dot_S2048x1152_S1152x1_S2048x1_1_0_0_1_n_n]; rfl
/-- The right operand's column is the result's column. -/
theorem rhs_1 (j : S2048x1.Idx) (k : D.contr.Idx) : (D.rhsIdx j k 1 : ℕ) = j 1 := by
  have hj : (j 1).val < 1 := (j 1).isLt
  have hr : (D.rhsIdx j k 1).val < 1 := (D.rhsIdx j k 1).isLt
  omega

/-- The one contraction axis has the 1152 positions. -/
abbrev contrK : D.contr.Idx ≃ Fin 1152 := contrEquiv1 D 1152 rfl rfl

/-- The left operand's index at contraction position `k`. -/
theorem lhs_at (p : Fin 2048) (q : Fin 1) (k : Fin 1152) : D.lhsIdx (ix2 p q) (contrK.symm k) = ix2 p k := by
  funext a; apply Fin.ext
  match a with
  | ⟨0, _⟩ => exact lhs_0 _ _
  | ⟨1, _⟩ => exact (lhs_1 _ _).trans (contrEquiv1_symm_val D 1152 rfl rfl k)

/-- The right operand's index at contraction position `k`. -/
theorem rhs_at (p : Fin 2048) (q : Fin 1) (k : Fin 1152) : D.rhsIdx (ix2 p q) (contrK.symm k) = ix2 k q := by
  funext a; apply Fin.ext
  match a with
  | ⟨0, _⟩ => exact (rhs_0 _ _).trans (contrEquiv1_symm_val D 1152 rfl rfl k)
  | ⟨1, _⟩ => exact rhs_1 _ _

/-- What the body stores, read at row `p`: the row of the loaded block times the loaded column. -/
theorem pay_apply (x0 : FVec Ideal S2048x1152 .f32) (x1 : FVec Ideal S1152x1 .f32) (p : Fin 2048) (q : Fin 1) :
    k0_pay1 (F := Ideal) x0 x1 (ix2 p q) = ∑ k : Fin 1152, x0 (ix2 p k) * x1 (ix2 k q) := by
  unfold k0_pay1
  simp only [shapeCast_self]
  refine (Ideal.matmul_constant_zero_apply D none _ _ (ix2 p q)).trans ?_
  rw [← Equiv.sum_comp contrK.symm]
  refine Finset.sum_congr rfl fun k _ => ?_
  rw [lhs_at, rhs_at]
  rfl

/-- The same at an index `j` of the block, by its coordinates. -/
theorem pay_at (x0 : FVec Ideal S2048x1152 .f32) (x1 : FVec Ideal S1152x1 .f32) (j : S2048x1.Idx) :
    k0_pay1 (F := Ideal) x0 x1 j = ∑ k : Fin 1152, x0 (ix2 (j 0) k) * x1 (ix2 k (j 1)) := by
  exact (congrArg (k0_pay1 (F := Ideal) x0 x1) (eq_ix2 j)).trans (pay_apply x0 x1 (j 0) (j 1))

end Cert.KernelIdeal.Flat

end
-- ==== Proof.Blocks.lean ====
/-
  From blocks to the array: what the launch leaves in its result array.

  Grid point `t` (of 20) loads rows `2048·t … 2048·t + 2047` of the 40960 × 1152 operand and the whole weight column, and
  writes back rows `2048·t …` of the 40960 × 1 result. Every row of the result lies in exactly the block of point
  `row / 2048`, so after the run the result array is `rowDots` of the two operand arrays as the launch found them:
  entry `(r, 0)` is row `r` of the operand times the weight column.
-/
import proofs.«176303_j12678743458055_1_alg».proof.Proof.Gen.KernelIdeal.Frame
import proofs.«176303_j12678743458055_1_alg».proof.Proof.Flat
import Idealize.ShloMosaic.Lib.Pipeline.Value

noncomputable section

open scoped BigOperators

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Flat

variable (m : (ℓ : Loc nD τ sig) → Buf (Elt Ideal) ℓ)

theorem hz : (![0, 0] : Fin 2 → Nat) = fun _ => 0 := funext fun a => by fin_cases a <;> rfl

/-- The block indices over the grid: the operand's and the result's row block is the point itself, every column block
    and the weight column's block are `0`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The operand's block at point `t` is rows `2048·t …` of the operand array. -/
theorem rows_blk (c : Dev nD) (t : Fin cfg0.N) (y : S2048x1152.Idx) (i : S40960x1152.Idx)
    (h0 : (i 0).val = t.val * 2048 + (y 0).val) (h1 : (i 1).val = (y 1).val) :
    (iblk m c 0 t : FVec Ideal S2048x1152 .f32) y = (V m c main_v1 : S40960x1152.Idx → EReal) i := by
  obtain ⟨e0, e1, -, -, -, -⟩ := idx_facts t
  unfold iblk
  rw [View.read_apply]
  show V m c main_v1 (((cfg0.win 0).blk t).view.emb y) = V m c main_v1 i
  refine congrArg _ (funext fun a => Fin.ext ?_)
  match a with
  | ⟨0, _⟩ => show win0_0.index t (0 : Fin 2) * 2048 + 1 * (y 0).val = (i 0).val; rw [e0, h0]; omega
  | ⟨1, _⟩ => show win0_0.index t (1 : Fin 2) * 1152 + 1 * (y 1).val = (i 1).val; rw [e1, h1]; omega

/-- The weight column's block at every point is the whole column. -/
theorem col_blk (c : Dev nD) (t : Fin cfg0.N) (y : S1152x1.Idx) (i : S1152x1.Idx)
    (h0 : (i 0).val = (y 0).val) (h1 : (i 1).val = (y 1).val) :
    (iblk m c 1 t : FVec Ideal S1152x1 .f32) y = (V m c main_v2 : S1152x1.Idx → EReal) i := by
  obtain ⟨-, -, e2, e3, -, -⟩ := idx_facts t
  unfold iblk
  rw [View.read_apply]
  show V m c main_v2 (((cfg0.win 1).blk t).view.emb y) = V m c main_v2 i
  refine congrArg _ (funext fun a => Fin.ext ?_)
  match a with
  | ⟨0, _⟩ => show win0_1.index t (0 : Fin 2) * 1152 + 1 * (y 0).val = (i 0).val; rw [e2, h0]; omega
  | ⟨1, _⟩ => show win0_1.index t (1 : Fin 2) * 1 + 1 * (y 1).val = (i 1).val; rw [e3, h1]; omega

/-- The array index of entry `j` of the result's block at point `t`: row `2048·t + j₀`, column `j₁`. -/
theorem out_emb (t : Fin cfg0.N) (j : S2048x1.Idx) :
    ((((cfg0.win 2).blk t).view.emb j : S40960x1.Idx) 0).val = t.val * 2048 + (j 0).val
    ∧ ((((cfg0.win 2).blk t).view.emb j : S40960x1.Idx) 1).val = (j 1).val := by
  obtain ⟨-, -, -, -, e4, e5⟩ := idx_facts t
  constructor
  · show win0_2.index t (0 : Fin 2) * 2048 + 1 * (j 0).val = _; rw [e4]; omega
  · show win0_2.index t (1 : Fin 2) * 1 + 1 * (j 1).val = _; rw [e5]; omega

/-- What point `t` writes back is block `t` of `rowDots` of the operand arrays as the launch finds them. -/
theorem flushed_eq (c : Dev nD) (t : Fin cfg0.N) :
    (dats m 0 c).flushed 2 t
      = ((cfg0.win 2).blk t).view.read (Elt Ideal) (rowDots (V m c main_v1) (V m c main_v2)) := by
  show (cfg0.win 2).cut (grid0.coords t) ((dats m 0 c).after 2 t) = _
  rw [after0_2]
  unfold out0_2
  rw [View.canon_unit_zero hz]
  simp only [View.ld_unit_zero (S := S2048x1152) hz, View.ld_unit_zero (S := S1152x1) hz]
  funext j
  rw [View.read_apply]
  show k0_pay1 (F := Ideal) (iblk m c 0 t) (iblk m c 1 t) j = rowDots (V m c main_v1) (V m c main_v2) (((cfg0.win 2).blk t).view.emb j)
  refine (pay_at _ _ j).trans ?_
  unfold rowDots
  obtain ⟨o0, o1⟩ := out_emb t j
  refine Finset.sum_congr rfl fun k _ => ?_
  rw [rows_blk m c t (ix2 (j 0) k) (ix2 ((((cfg0.win 2).blk t).view.emb j : S40960x1.Idx) 0) k) o0 rfl,
    col_blk m c t (ix2 k (j 1)) (ix2 k ((((cfg0.win 2).blk t).view.emb j : S40960x1.Idx) 1)) rfl o1]

/-- An index of the result array is in point `t`'s block iff each coordinate is in the block's range. -/
theorem mem_blk (t : Fin cfg0.N) (i : S40960x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v3).slice (win0_2.rect t)).set ↔ _
  rw [View.set_slice_whole, Rect.mem_set_unit]
  exact Iff.rfl

/-- Every row of the result is in the block of point `row / 2048`, which is written back. -/
theorem cover (i : S40960x1.Idx) :
    ∃ t : Fin cfg0.N, (cfg0.win 2).flush t = true ∧ i ∈ ((cfg0.win 2).blk t).view.set := by
  have hi0 : (i 0).val < 40960 := (i 0).isLt
  have hi1 : (i 1).val < 1 := (i 1).isLt
  have hN : cfg0.N = 20 := N_0
  have hq : (i 0).val / 2048 < cfg0.N := by rw [hN]; omega
  refine ⟨⟨(i 0).val / 2048, hq⟩, flush0_2 _, ?_⟩
  rw [mem_blk]
  obtain ⟨-, -, -, -, e4, e5⟩ := idx_facts ⟨(i 0).val / 2048, hq⟩
  have e4' : win0_2.index ⟨(i 0).val / 2048, hq⟩ (0 : Fin 2) = (i 0).val / 2048 := e4
  intro a
  match a with
  | ⟨0, _⟩ =>
    show win0_2.index ⟨(i 0).val / 2048, hq⟩ (0 : Fin 2) * 2048 ≤ (i 0).val ∧ (i 0).val < win0_2.index ⟨(i 0).val / 2048, hq⟩ (0 : Fin 2) * 2048 + 2048
    rw [e4']; omega
  | ⟨1, _⟩ =>
    show win0_2.index ⟨(i 0).val / 2048, hq⟩ (1 : Fin 2) * 1 ≤ (i 1).val ∧ (i 1).val < win0_2.index ⟨(i 0).val / 2048, hq⟩ (1 : Fin 2) * 1 + 1
    rw [e5]; omega

/-- The result array after the run: every row of the operand times the weight column. -/
theorem final (c : Dev nD) : (dats m 0 c).arrAt 2 cfg0.N = rowDots (V m c main_v1) (V m c main_v2) :=
  (dats m 0 c).arrAt_eq_of_cover 2 (rowDots (V m c main_v1) (V m c main_v2)) (fun t _ => flushed_eq m c t) cover

end Cert.KernelIdeal.Blocks

end
-- ==== Proof.Routing.lean ====
/-
  The routing iterations, as one function of the predicted vectors and the routing parameter.

  Both programs compute predicted vectors `û[n, i, 0]` (batch `n`, input capsule `i`) and then apply the same two
  routing iterations to them and to the parameter `b[j, 0]` (output capsule `j`):
    logits  x₀[n, j, i] = b[j, 0]
    coupling c = softmax of x over the output-capsule axis j, written exp (x − max_j x) / Σ_j exp (x − max_j x)
    votes   s[n, j, 0] = Σ_i c[n, j, i] · û[n, i, 0]
    squash  v = √q / (1 + q) · s  with  q = Σ over the unit last axis of s · s
    update  x₁ = x₀ + v ⊗ ûᵀ
  and the result is the squashed votes of the second iteration. This file states those steps once, so that each
  program's result is `route` of its own predicted vectors and nothing below ever looks inside a softmax.
-/
import proofs.«176303_j12678743458055_1_alg».proof.KernelIdeal

noncomputable section

namespace Cert.Routing

open Idealize.ShloMosaic Cert.KernelIdeal Cert.KernelIdeal.Facts₀

variable {F : FTy → Type} [FloatOps F] [Cert.KernelIdeal.Facts]

/-- The contents of an f32 array of shape `s`. -/
abbrev Arr (F : FTy → Type) (s : Shape) : Type := (⟨s, .f32⟩ : BufTy).Contents (Elt F)

/-- The logits before the first iteration: `b[j, 0]` at every batch `n`, output capsule `j`, input capsule `i`. -/
def logits0 (b : Arr F S55x1) : Arr F S8192x55x5 :=
  broadcastInDim S8192x55x5 ![1, 2] bcast_S55x1_S8192x55x5_1_2 b

/-- The softmax's numerator over the output-capsule axis: `exp (x − max_j x)`, the maximum started at `−∞`. -/
def expShift (x : Arr F S8192x55x5) : Arr F S8192x55x5 :=
  Host.exp (subf x (broadcastInDim S8192x55x5 ![0, 1, 2] bcast_S8192x1x5_S8192x55x5_0_1_2 (broadcastInDim S8192x1x5 ![0, 2] bcast_S8192x5_S8192x1x5_0_2 (maximumf (broadcastInDim S8192x5 ![] bcast_S_S8192x5 (constant S_ .f32 0xFF800000#32)) (Host.reduce FloatOps.maximumf x (constant S_ .f32 0xFF800000#32) reducesTo_S8192x55x5_S8192x5_d1 h_S_)))))

/-- The votes: the numerator `e` divided by its sum over `j` (the coupling coefficients), contracted with `û` over the
    input capsules `i`. -/
def votes (uh : Arr F S8192x5x1) (e : Arr F S8192x55x5) : Arr F S8192x55x1 :=
  Host.dotGeneral dot_S8192x55x5_S8192x5x1_S8192x55x1_2_1_1_2_0_0 none (Host.divf e (broadcastInDim S8192x55x5 ![0, 1, 2] bcast_S8192x1x5_S8192x55x5_0_1_2 (broadcastInDim S8192x1x5 ![0, 2] bcast_S8192x5_S8192x1x5_0_2 (Host.reduceAdd e (constant S_ .f32 0x00000000#32) reducesTo_S8192x55x5_S8192x5_d1 h_S_)))) uh

/-- The squared norm over the last axis (of extent one), kept as an axis. -/
def normSq (s : Arr F S8192x55x1) : Arr F S8192x55x1 :=
  broadcastInDim S8192x55x1 ![0, 1] bcast_S8192x55_S8192x55x1_0_1 (Host.reduceAdd (mulf s s) (constant S_ .f32 0x00000000#32) reducesTo_S8192x55x1_S8192x55_d2 h_S_)

/-- The squash of votes `s` with squared norm `q`: `√q / (1 + q) · s`. -/
def squash (s q : Arr F S8192x55x1) : Arr F S8192x55x1 :=
  mulf (Host.divf (Host.sqrt q) (addf (broadcastInDim S8192x55x1 ![] bcast_S_S8192x55x1 (constant S_ .f32 0x3F800000#32)) q)) s

/-- The logits after the first iteration: `x₀` plus the agreement of the squashed votes with `ûᵀ`. -/
def logits1 (uh : Arr F S8192x5x1) (b : Arr F S55x1) : Arr F S8192x55x5 :=
  addf (logits0 b) (Host.dotGeneral dot_S8192x55x1_S8192x1x5_S8192x55x5_2_1_1_2_0_0 none (squash (votes uh (expShift (logits0 b))) (normSq (votes uh (expShift (logits0 b))))) (transpose S8192x1x5 [0, 2, 1] uh transposes_S8192x5x1_S8192x1x5_0_2_1))

/-- The result of the two routing iterations: the squashed votes under the updated logits. -/
def route (uh : Arr F S8192x5x1) (b : Arr F S55x1) : Arr F S8192x55x1 :=
  squash (votes uh (expShift (logits1 uh b))) (normSq (votes uh (expShift (logits1 uh b))))

end Cert.Routing

end
-- ==== Proof.KernelTail.lean ====
/-
  The kernel program's host operations after the launch, read as the routing function.

  After the launch the program reshapes the launch's result (40960 rows of one entry) to `û[n, i, 0]` and then runs the
  routing iterations on the host. Over ANY contents `W` of the buffers as the launch leaves them, the result buffer after
  those operations is `route` of the reshaped launch result and of the parameter `b`.
-/
import proofs.«176303_j12678743458055_1_alg».proof.Proof.Gen.KernelIdeal.Launch
import proofs.«176303_j12678743458055_1_alg».proof.Proof.Routing
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo
open Cert.Routing

variable {F : FTy → Type} [FloatOps F]

set_option maxRecDepth 8192 in
set_option maxHeartbeats 2000000 in
/-- The result buffer after the host operations that follow the launch, from any contents `W`: the two routing
    iterations applied to the launch's result, reshaped, and to the parameter. -/
theorem result_of (W : Valuation τ sig (Elt F)) :
    StableHlo.after hostOps1 W (Proc.devRef .tc main_v48)
      = route (shapeCast S8192x5x1 (W (Proc.devRef .tc main_v3)) shapeCasts_S40960x1_S8192x5x1) (W (Proc.devRef .tc main_arg2)) := by
  after_results_simp <;> rfl

end Cert.KernelIdeal.Tail

end
-- ==== Proof.KernelRun.lean ====
/-
  The kernel program's run, read: its result is the routing function of its own predicted vectors.

  Before the launch the host reshapes the input to 40960 rows of 1152 and the weight to a 1152 × 1 column; the launch
  leaves every row's product with the column; after it the host reshapes those 40960 numbers to batch × input capsule × 1
  (the predicted vectors `uhat`) and runs the two routing iterations. So the result buffer ends at `route (uhat …) b`,
  and the three arguments end as they were.
-/
import proofs.«176303_j12678743458055_1_alg».proof.Proof.Blocks
import proofs.«176303_j12678743458055_1_alg».proof.Proof.KernelTail

noncomputable section

namespace Cert.KernelIdeal.Run

open Idealize.ShloMosaic Idealize.ShloMosaic.TcCoe Idealize.SL.Sem Idealize.ShloMosaic.StableHlo
open Cert.KernelIdeal Cert.KernelIdeal.Gen Cert.KernelIdeal.Flat Cert.Routing

variable (m : (ℓ : Loc nD τ sig) → Buf (Elt Ideal) ℓ) (ρ : Dev nD → PrngReg)

/-- The launch's first operand as it finds it: the input reshaped twice, to 40960 rows of 1152. -/
theorem rows_eq (c : Dev nD) :
    (V m c main_v1 : S40960x1152.Idx → EReal)
      = shapeCast S40960x1152 (shapeCast S8192x5x1152 (m ((c : Thread nD τ).loc main_arg0)) shapeCasts_S8192x5x128x3x3_S8192x5x1152) shapeCasts_S8192x5x1152_S40960x1152 := by
  show StableHlo.after hostOps0 (fun b => m (c, b)) (Proc.devRef .tc main_v1) = _
  after_results
  rfl

/-- Its second operand: the weight reshaped to a column. -/
theorem col_eq (c : Dev nD) :
    (V m c main_v2 : S1152x1.Idx → EReal)
      = shapeCast S1152x1 (m ((c : Thread nD τ).loc main_arg1)) shapeCasts_S1x1152x1_S1152x1 := by
  show StableHlo.after hostOps0 (fun b => m (c, b)) (Proc.devRef .tc main_v2) = _
  after_results
  rfl

/-- The kernel program's predicted vectors: the rows' products with the column, reshaped to batch × input capsule × 1. -/
def uhat (c : Dev nD) : Arr Ideal S8192x5x1 :=
  shapeCast S8192x5x1
    (rowDots (shapeCast S40960x1152 (shapeCast S8192x5x1152 (m ((c : Thread nD τ).loc main_arg0)) shapeCasts_S8192x5x128x3x3_S8192x5x1152) shapeCasts_S8192x5x1152_S40960x1152)
      (shapeCast S1152x1 (m ((c : Thread nD τ).loc main_arg1)) shapeCasts_S1x1152x1_S1152x1))
    shapeCasts_S40960x1_S8192x5x1

/-- The result buffer after the host operations that follow the launch. -/
theorem result_eq (c : Dev nD) :
    Pipeline.afterTail₀ cfgs (dats m) 0 (V0 m) [hostOps1] c main_v48
      = route (uhat m c) (m ((c : Thread nD τ).loc main_arg2)) := by
  unfold Pipeline.afterTail₀
  show StableHlo.after hostOps1 _ (Proc.devRef .tc main_v48) = _
  refine (Tail.result_of _).trans ?_
  have hA := (Pipeline.withArrays_arr spec0 launch0.win.arr_inj c (V0 m c) (fun w => (dats m 0 c).arrAt w cfg0.N) 2).trans (Blocks.final m c)
  have hB := (Pipeline.withArrays_of_ne spec0 c (V0 m c) (fun w => (dats m 0 c).arrAt w cfg0.N) main_arg2
    (by exact (by decide : ∀ w, Pipeline.arrRef spec0 w ≠ main_arg2))).trans (V_main_arg2 m c)
  unfold uhat
  rw [← rows_eq m c, ← col_eq m c]
  exact congrArg₂ route (congrArg (shapeCast S8192x5x1 · shapeCasts_S40960x1_S8192x5x1) hA) hB

/-- The run: the result at the routing function of the predicted vectors, the arguments unchanged. -/
theorem run : θ_run defs (onTc (τ := τ) (main (F := Ideal))) ⟨m, fun _ => 0, ρ⟩ fun r => ∀ c : Dev nD,
      r.2.mem ((c.tc : Thread nD τ).loc main_v48) = route (uhat m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v48 (Pipeline.mem_restRefs_of main_v48 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.RefRoute.lean ====
/-
  The reference program's result, read as the routing function.

  The reference computes its predicted vectors by one batched product and then runs the same two routing iterations;
  its run names the intermediate arrays that are used more than once. Step by step those are the routing function's
  pieces, so the result is `route` of the reference's predicted vectors and of the parameter `b`.
-/
import proofs.«176303_j12678743458055_1_alg».proof.Proof.Gen.KernelIdeal
import proofs.«176303_j12678743458055_1_alg».proof.Proof.Gen.ReferenceIdeal.Run
import proofs.«176303_j12678743458055_1_alg».proof.Proof.Routing

noncomputable section

namespace Cert.ReferenceIdeal.RefRoute

open Cert.ReferenceIdeal Cert.ReferenceIdeal.Gen Cert.ReferenceIdeal.Value Idealize.ShloMosaic Idealize.ShloMosaic.TcCoe Idealize.SL.Sem
open Cert.Routing

variable {F : FTy → Type} [FloatOps F]
variable (V0 : Valuation τ sig (Elt F))

/-- The logits before the first iteration. -/
theorem v3_eq : res_main_v3 V0 = logits0 (V0 (Proc.devRef .tc main_arg2)) := rfl

/-- The first softmax's numerator. -/
theorem v10_eq : res_main_v10 V0 = expShift (logits0 (V0 (Proc.devRef .tc main_arg2))) := by
  unfold res_main_v10; rw [v3_eq]; rfl

/-- The first votes. -/
theorem v15_eq : res_main_v15 V0 = votes (res_main_v2 V0) (expShift (logits0 (V0 (Proc.devRef .tc main_arg2)))) := by
  unfold res_main_v15; rw [v10_eq]; rfl

/-- Their squared norm. -/
theorem v18_eq : res_main_v18 V0 = normSq (votes (res_main_v2 V0) (expShift (logits0 (V0 (Proc.devRef .tc main_arg2))))) := by
  unfold res_main_v18; rw [v15_eq]; rfl

/-- The logits after the first iteration. -/
theorem v26_eq : res_main_v26 V0 = logits1 (res_main_v2 V0) (V0 (Proc.devRef .tc main_arg2)) := by
  unfold res_main_v26; rw [v3_eq, v18_eq, v15_eq]; rfl

/-- The second softmax's numerator. -/
theorem v33_eq : res_main_v33 V0 = expShift (logits1 (res_main_v2 V0) (V0 (Proc.devRef .tc main_arg2))) := by
  unfold res_main_v33; rw [v26_eq]; rfl

/-- The second votes. -/
theorem v38_eq : res_main_v38 V0 = votes (res_main_v2 V0) (expShift (logits1 (res_main_v2 V0) (V0 (Proc.devRef .tc main_arg2)))) := by
  unfold res_main_v38; rw [v33_eq]; rfl

/-- Their squared norm. -/
theorem v41_eq : res_main_v41 V0 = normSq (votes (res_main_v2 V0) (expShift (logits1 (res_main_v2 V0) (V0 (Proc.devRef .tc main_arg2))))) := by
  unfold res_main_v41; rw [v38_eq]; rfl

/-- The reference's result: the routing iterations on its own predicted vectors. -/
theorem result_eq :
    mulf (Host.divf (Host.sqrt (res_main_v41 V0)) (addf (broadcastInDim S8192x55x1 ![] bcast_S_S8192x55x1 (constant S_ .f32 0x3F800000#32)) (res_main_v41 V0))) (res_main_v38 V0)
      = route (res_main_v2 V0) (V0 (Proc.devRef .tc main_arg2)) := by
  rw [v41_eq, v38_eq]; rfl

end Cert.ReferenceIdeal.RefRoute

end
-- ==== Proof.Uhat.lean ====
/-
  The two programs compute the same predicted vectors.

  With `x[n, i, k]` the input reshaped to batch × input capsule × 1152 and `w[0, k, 0]` the weight:
  the reference contracts `x[n, i, ·]` with the weight broadcast over the batch, `û[n, i, 0] = Σ_k x[n, i, k] · w[0, k, 0]`;
  the kernel program flattens `x` to 40960 rows (row `5n + i`), takes every row's product with the weight column, and
  reshapes the 40960 results back to batch × input capsule × 1. Row `5n + i` of the flattened input is `x[n, i, ·]` and
  entry `k` of the column is `w[0, k, 0]`, so the two sums have the same terms in the same order: no law of the
  extended reals is used beyond reading both sums at the same 1152 positions.
-/
import proofs.«176303_j12678743458055_1_alg».proof.Proof.Gen.ReferenceIdeal
import proofs.«176303_j12678743458055_1_alg».proof.Proof.Flat
import Idealize.ShloMosaic.Lib.ValueIdx
import Idealize.ShloMosaic.Lib.Pipeline.Value
import Idealize.ShloMosaic.PureOps.Ideal.Laws

noncomputable section

open scoped BigOperators

namespace Cert.Uhat

open Idealize.ShloMosaic Idealize.ShloMosaic.ValueIdx Cert.KernelIdeal Cert.KernelIdeal.Flat

/-- The reference's batched product: batch axis 0 on both sides, the 1152 axis contracted. -/
abbrev DR : DotDims Cert.ReferenceIdeal.S8192x5x1152 Cert.ReferenceIdeal.S8192x1152x1 Cert.ReferenceIdeal.S8192x5x1 :=
  Cert.ReferenceIdeal.dot_S8192x5x1152_S8192x1152x1_S8192x5x1_2_1_1_2_0_0

/-- The left operand's batch coordinate is the result's. -/
theorem rl_0 (j : Cert.ReferenceIdeal.S8192x5x1.Idx) (k : DR.contr.Idx) : (DR.lhsIdx j k 0 : ℕ) = j 0 := by
  simp [DotDims.lhsIdx, DR, Cert.ReferenceIdeal.dot_S8192x5x1152_S8192x1152x1_S8192x5x1_2_1_1_2_0_0]; rfl
/-- The left operand's capsule coordinate is the result's. -/
theorem rl_1 (j : Cert.ReferenceIdeal.S8192x5x1.Idx) (k : DR.contr.Idx) : (DR.lhsIdx j k 1 : ℕ) = j 1 := by
  simp [DotDims.lhsIdx, DR, Cert.ReferenceIdeal.dot_S8192x5x1152_S8192x1152x1_S8192x5x1_2_1_1_2_0_0]; rfl
/-- The left operand's last coordinate is the contraction position. -/
theorem rl_2 (j : Cert.ReferenceIdeal.S8192x5x1.Idx) (k : DR.contr.Idx) : (DR.lhsIdx j k 2 : ℕ) = k ⟨0, by decide⟩ := by
  simp [DotDims.lhsIdx, DR, Cert.ReferenceIdeal.dot_S8192x5x1152_S8192x1152x1_S8192x5x1_2_1_1_2_0_0]; rfl
/-- The right operand's middle coordinate is the contraction position. -/
theorem rr_1 (j : Cert.ReferenceIdeal.S8192x5x1.Idx) (k : DR.contr.Idx) : (DR.rhsIdx j k 1 : ℕ) = k ⟨0, by decide⟩ := by
  simp [DotDims.rhsIdx, DR, Cert.ReferenceIdeal.dot_S8192x5x1152_S8192x1152x1_S8192x5x1_2_1_1_2_0_0]; rfl

/-- The predicted vectors of the kernel program (flatten, row products, reshape back) are the reference's batched
    product, for any reshaped input `x` and weight `w`. -/
theorem uhat_eq (x : FVec Ideal S8192x5x1152 .f32) (w : FVec Ideal S1x1152x1 .f32)
    (h2 : S8192x5x1152.ShapeCasts S40960x1152) (h3 : S1x1152x1.ShapeCasts S1152x1) (h4 : S40960x1.ShapeCasts S8192x5x1)
    (hb : Cert.ReferenceIdeal.S1x1152x1.BroadcastsInDim Cert.ReferenceIdeal.S8192x1152x1 (![0, 1, 2] : Fin 3 → Fin Cert.ReferenceIdeal.S8192x1152x1.rank)) :
    shapeCast S8192x5x1 (rowDots (shapeCast S40960x1152 x h2) (shapeCast S1152x1 w h3)) h4
      = Host.dotGeneral (F := Ideal) DR none x (broadcastInDim Cert.ReferenceIdeal.S8192x1152x1 ![0, 1, 2] hb w) := by
  funext j
  obtain ⟨n, i, o, rfl⟩ : ∃ (n : Fin 8192) (i : Fin 5) (o : Fin 1), j = ix3 n i o := ⟨j 0, j 1, j 2, eq_ix3 j⟩
  have hn := n.isLt
  have hi := i.isLt
  have ho : o.val = 0 := by omega
  have hrow : 5 * n.val + i.val < 40960 := by omega
  -- the kernel side: entry (n, i, 0) of the reshaped result is row 5n + i of the flat result
  refine (shapeCast_apply _ h4 (ix3 n i o) (ix2 (⟨5 * n.val + i.val, hrow⟩ : Fin 40960) o) (by
    rw [Shape.rowMajor_val_two, Shape.rowMajor_val_three]
    show (5 * n.val + i.val) * 1 + o.val = (n.val * 5 + i.val) * 1 + o.val
    omega)).trans ?_
  unfold rowDots
  -- the reference side: the same sum over the one contraction axis
  refine Eq.trans ?_ (Ideal.dotGeneral_apply DR none .single x _ (ix3 n i o)).symm
  rw [← Equiv.sum_comp (contrEquiv1 DR 1152 rfl rfl).symm]
  refine Finset.sum_congr rfl fun k _ => ?_
  have hk := k.isLt
  congr 1
  · -- row 5n + i of the flattened input at position k is x[n, i, k]
    refine (shapeCast_apply x h2 _ (ix3 n i k) (by
      rw [Shape.rowMajor_val_three, Shape.rowMajor_val_two]
      show (n.val * 5 + i.val) * 1152 + k.val = (5 * n.val + i.val) * 1152 + k.val
      omega)).trans ?_
    refine congrArg x (funext fun a => Fin.ext ?_)
    match a with
    | ⟨0, _⟩ => exact (rl_0 (ix3 n i o) _).symm
    | ⟨1, _⟩ => exact (rl_1 (ix3 n i o) _).symm
    | ⟨2, _⟩ => exact ((rl_2 (ix3 n i o) _).trans (contrEquiv1_symm_val DR 1152 rfl rfl k)).symm
  · -- entry k of the weight column is w[0, k, 0], and so is the broadcast weight at (n, k, 0)
    refine (shapeCast_apply w h3 _ (ix3 (0 : Fin 1) k (0 : Fin 1)) (by
      rw [Shape.rowMajor_val_three, Shape.rowMajor_val_two]
      show (0 * 1152 + k.val) * 1 + 0 = k.val * 1 + o.val
      omega)).trans ?_
    refine (broadcastInDim_apply _ hb w _ (ix3 (0 : Fin 1) k (0 : Fin 1)) (fun a => ?_)).symm
    match a with
    | ⟨0, _⟩ => rfl
    | ⟨1, _⟩ =>
      show k.val = if (1152 : ℕ) = 1 then 0 else (DR.rhsIdx (ix3 n i o) ((contrEquiv1 DR 1152 rfl rfl).symm k) 1).val
      rw [if_neg (by decide)]
      exact ((rr_1 (ix3 n i o) _).trans (contrEquiv1_symm_val DR 1152 rfl rfl k)).symm
    | ⟨2, _⟩ => rfl

end Cert.Uhat

end
-- ==== Proof.lean ====
/-
  A capsule-routing layer: predicted vectors `û[n, i, 0] = Σ_k u[n, i, k] · W[0, k, 0]` (the input `u` read as
  batch × 5 input capsules × 1152), then two routing iterations against the parameter `b` (softmax over the 55 output
  capsules, votes, squash, logits update), the result the squashed votes of the second iteration.

  The kernel program computes `û` in a launch over 20 blocks of 2048 flattened rows — each row of a block times the
  weight column, the operands changed to bf16 first, which is the identity on the extended reals — and reshapes the
  40960 products back; the reference computes `û` by one batched product with the weight broadcast over the batch.
  Both sums run over the same 1152 positions with the same terms (Proof/Uhat.lean), so the predicted vectors agree
  entry by entry, with no use of finiteness. Everything after `û` is the same chain of host operations in both
  programs, carried as one function `route` (Proof/Routing.lean) that is never opened: the kernel program's result is
  `route` of its predicted vectors (Proof/Blocks.lean for the launch's array, Proof/KernelTail.lean and
  Proof/KernelRun.lean for the host operations around it) and so is the reference's (Proof/RefRoute.lean).

  The three frames: the two kernel programs' are their launches' generated frame certificates; the reference's is its
  run with the result dropped. The idealization rewrote no operation, so what it preserves is trivially true.
-/
import proofs.«176303_j12678743458055_1_alg».proof.Defs
import proofs.«176303_j12678743458055_1_alg».proof.Proof.Gen.Kernel
import proofs.«176303_j12678743458055_1_alg».proof.Proof.Gen.Kernel.Skeleton
import proofs.«176303_j12678743458055_1_alg».proof.Proof.Gen.Kernel.Launch
import proofs.«176303_j12678743458055_1_alg».proof.Proof.Gen.Kernel.Points
import proofs.«176303_j12678743458055_1_alg».proof.Proof.Gen.Kernel.Frame
import proofs.«176303_j12678743458055_1_alg».proof.Proof.Gen.KernelIdeal
import proofs.«176303_j12678743458055_1_alg».proof.Proof.Gen.KernelIdeal.Skeleton
import proofs.«176303_j12678743458055_1_alg».proof.Proof.Gen.KernelIdeal.Launch
import proofs.«176303_j12678743458055_1_alg».proof.Proof.Gen.KernelIdeal.Points
import proofs.«176303_j12678743458055_1_alg».proof.Proof.Gen.KernelIdeal.Frame
import proofs.«176303_j12678743458055_1_alg».proof.Proof.Gen.ReferenceIdeal
import proofs.«176303_j12678743458055_1_alg».proof.Proof.Gen.ReferenceIdeal.Run
import proofs.«176303_j12678743458055_1_alg».proof.Proof.Gen.Pre_finite_inputs
import proofs.«176303_j12678743458055_1_alg».proof.Proof.KernelRun
import proofs.«176303_j12678743458055_1_alg».proof.Proof.RefRoute
import proofs.«176303_j12678743458055_1_alg».proof.Proof.Uhat
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs and keeps its arguments: its launch's frame certificate. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the routing function of the same predicted vectors
    and the same parameter. -/
theorem algebraic : Cert.algebraic_KernelIdeal_ReferenceIdeal := by
  intro m ρ m' ρ' _ hagree
  refine ⟨fun c => Cert.Routing.route (Cert.KernelIdeal.Run.uhat m c) (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  have e0 : launchContents m' c (Proc.devRef .tc Cert.ReferenceIdeal.main_arg0) = m ((c.tc : Thread Cert.KernelIdeal.nD Cert.KernelIdeal.τ).loc Cert.KernelIdeal.main_arg0) := (hagree c).1
  have e1 : launchContents m' c (Proc.devRef .tc Cert.ReferenceIdeal.main_arg1) = m ((c.tc : Thread Cert.KernelIdeal.nD Cert.KernelIdeal.τ).loc Cert.KernelIdeal.main_arg1) := (hagree c).2.1
  have e2 : launchContents m' c (Proc.devRef .tc Cert.ReferenceIdeal.main_arg2) = m ((c.tc : Thread Cert.KernelIdeal.nD Cert.KernelIdeal.τ).loc Cert.KernelIdeal.main_arg2) := (hagree c).2.2
  rw [Cert.ReferenceIdeal.RefRoute.result_eq]
  unfold Cert.ReferenceIdeal.Value.res_main_v2
  rw [e0, e1, e2]
  exact congrArg (Cert.Routing.route · _) (Cert.Uhat.uhat_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
